-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S65536x1024 : Shape := ⟨2, ![65536, 1024]⟩
abbrev S1024 : Shape := ⟨1, ![1024]⟩
abbrev S1x1024 : Shape := ⟨2, ![1, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1x1024, .f32⟩
  | .hbm, ⟨3, _⟩ => ⟨S65536x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .f32⟩
  | .local _ .vmem, ⟨4, _⟩ => ⟨S2048x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S65536x1024.size a
  hwx0_2 : ∀ i : grid0.Coords, EltTy.bits .f32 = 32 ∨ (Rect.block (s := S65536x1024) S2048x1024.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S65536x1024 : Shape := ⟨2, ![65536, 1024]⟩
abbrev S1024 : Shape := ⟨1, ![1024]⟩
abbrev S1x1024 : Shape := ⟨2, ![1, 1024]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1x1024, .f32⟩
  | .hbm, ⟨3, _⟩ => ⟨S65536x1024, .f32⟩
  | .hbm, ⟨4, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)

variable [Facts₀]

class Facts : Prop extends Facts₀ where

variable [Facts]
-- ==== Proof.ColumnScale.lean ====
/-
  Scaling the columns of a matrix. For a 65536 × 1024 matrix `x` and a vector `a` of length 1024 the result
  has, at row `r` and column `c`, the product `x[r, c] · a[c]`: every row is multiplied, entry by entry, by
  the one vector `a`. The statement is made for any float interpretation; nothing here uses a law of the
  multiplication, only which entry of each operand an entry of the result is made from.
-/
import Idealize.ShloMosaic.Lib.ValueIdx
import Idealize.ShloMosaic.Lib.ValueLayout

noncomputable section

namespace Cert.ColumnScale

open Idealize.ShloMosaic Idealize.ShloMosaic.ValueIdx

variable {F : FTy → Type} [FloatOps F]

/-- The column of an index of the matrix, as an index of the vector. -/
abbrev col (i : (⟨2, ![65536, 1024]⟩ : Shape).Idx) : (⟨1, ![1024]⟩ : Shape).Idx := ix1 (i 1 : Fin 1024)

/-- `scaled x a` at `(r, c)` is `x[r, c] · a[c]`. -/
def scaled (x : (⟨2, ![65536, 1024]⟩ : Shape).Idx → Elt F .f32) (a : (⟨1, ![1024]⟩ : Shape).Idx → Elt F .f32) :
    (⟨2, ![65536, 1024]⟩ : Shape).Idx → Elt F .f32 :=
  fun i => FloatOps.mulf (x i) (a (col i))

theorem scaled_apply (x : (⟨2, ![65536, 1024]⟩ : Shape).Idx → Elt F .f32) (a : (⟨1, ![1024]⟩ : Shape).Idx → Elt F .f32)
    (i : (⟨2, ![65536, 1024]⟩ : Shape).Idx) : scaled x a i = FloatOps.mulf (x i) (a (col i)) := rfl

/-- The vector laid out as a one-row matrix `[1, 1024]` (row-major, so nothing moves) holds `a[c]` at `(0, c)`. -/
theorem row_of_vector (a : (⟨1, ![1024]⟩ : Shape).Idx → Elt F .f32)
    (h : (⟨1, ![1024]⟩ : Shape).ShapeCasts ⟨2, ![1, 1024]⟩) (k : (⟨2, ![1, 1024]⟩ : Shape).Idx) :
    shapeCast ⟨2, ![1, 1024]⟩ a h k = a (ix1 (k 1 : Fin 1024)) := by
  rw [eq_ix2 k]
  exact shapeCast_a_1a_apply a h (k 0) (k 1)

end Cert.ColumnScale

end
-- ==== Proof.KernelValue.lean ====
/-
  The kernel's result is the column-scaled matrix. The grid has 32 points; point `t` stages rows
  `2048·t … 2048·t + 2047` of the matrix `x` and the whole one-row matrix `[1, 1024]` that holds the vector `a`,
  multiplies every staged row by that row entry by entry, and writes the product back to the same rows of the result.
  So what point `t` writes back is rows `2048·t …` of `x[r, c] · a[c]`, the 32 row blocks tile the result, and the
  result array ends holding `x[r, c] · a[c]` everywhere.
-/
import proofs.«415390_j46136538693752_3_alg».proof.Proof.Gen.KernelIdeal.Value
import proofs.«415390_j46136538693752_3_alg».proof.Proof.ColumnScale
import Idealize.ShloMosaic.Lib.StableHlo.Run
import Idealize.ShloMosaic.Lib.Tactic

noncomputable section

namespace Cert.KernelIdeal.Hand

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## The body at an index of its block -/

/-- What the body leaves in the output's staging buffer, at `(p, q)` of the block: the staged entry of `x` there
    times the staged row's entry at column `q`. -/
theorem body_apply (x0 : Vec F S2048x1024 .f32) (x1 : Vec F S1x1024 .f32) (j : S2048x1024.Idx) :
    out0_2 x0 x1 j = FloatOps.mulf (x0 j) (x1 (ix2 (0 : Fin 1) (j 1 : Fin 1024))) := by
  unfold out0_2
  rw [canon2_eq]
  simp only [View.ld_unit_zero (S := S2048x1024) hz, View.ld_unit_zero (S := S1x1024) hz]
  show FloatOps.mulf (x0 (ix2_0 j)) (x1 (ix2_1 j)) = _
  have e0 : ix2_0 j = j := by
    funext a
    match a with
    | ⟨0, _⟩ => rfl
    | ⟨1, _⟩ => rfl
  have e1 : ix2_1 j = ix2 (0 : Fin 1) (j 1 : Fin 1024) := by
    funext a
    match a with
    | ⟨0, _⟩ => rfl
    | ⟨1, _⟩ => rfl
  rw [e0, e1]
  rfl

/-! ## The staged blocks as entries of the arguments -/

/-- Where each window's block sits at point `t`: the matrix's and the result's at block row `t`, the one-row
    matrix's always at its only block (decided over the 32 points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The one-row matrix the region finds is the vector `a` laid out as `[1, 1024]`. -/
theorem row_eq (c : Dev nD) : (V m c main_v0 : S1x1024.Idx → Elt F .f32)
    = shapeCast S1x1024 (m ((c : Thread nD τ).loc main_arg1) : S1024.Idx → Elt F .f32) shapeCasts_S1024_S1x1024 := by
  dsimp only [V, hostOps0]
  after_results
  rfl

/-- The staged block of `x` at point `t`, at `(p, q)`, is `x` at row `2048·t + p` and column `q`. -/
theorem xblk_apply (c : Dev nD) (t : Fin cfg0.N) (j : S2048x1024.Idx) (k : S65536x1024.Idx)
    (hk0 : (k 0).val = 2048 * t.val + (j 0).val) (hk1 : (k 1).val = (j 1).val) :
    (iblk m c 0 t : Vec F S2048x1024 .f32) j = (m ((c : Thread nD τ).loc main_arg0) : S65536x1024.Idx → Elt F .f32) k := by
  obtain ⟨e0, e1, -, -, -, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 2048 + 1 * (j 0).val = (k 0).val; rw [e0, hk0]; omega
  | ⟨1, _⟩ => show win0_0.index t (1 : Fin 2) * 1024 + 1 * (j 1).val = (k 1).val; rw [e1, hk1]; omega

/-- The staged one-row matrix, at `(0, q)`, is `a` at `q`, at every point. -/
theorem arow_apply (c : Dev nD) (t : Fin cfg0.N) (j : S1x1024.Idx) :
    (iblk m c 1 t : Vec F S1x1024 .f32) j = (m ((c : Thread nD τ).loc main_arg1) : S1024.Idx → Elt F .f32) (ix1 (j 1 : Fin 1024)) := by
  obtain ⟨-, -, e2, e3, -, -⟩ := idx_facts t
  unfold iblk
  rw [View.read_apply]
  show (V m c main_v0 : S1x1024.Idx → Elt F .f32) _ = _
  rw [row_eq, Cert.ColumnScale.row_of_vector]
  congr 1
  funext a
  apply Fin.ext
  match a with
  | ⟨0, _⟩ => show win0_1.index t (1 : Fin 2) * 1024 + 1 * (j 1).val = (j 1).val; rw [e3]; omega

/-! ## What a point writes back, the cover, the array after the run -/

/-- Point `t` writes back block `t` of the column-scaled matrix. -/
theorem flushed_eq (c : Dev nD) (t : Fin cfg0.N) :
    (dats m 0 c).flushed 2 t = ((cfg0.win 2).blk t).view.read (Elt F)
      (Cert.ColumnScale.scaled (m ((c : Thread nD τ).loc main_arg0)) (m ((c : Thread nD τ).loc main_arg1))) := by
  obtain ⟨-, -, -, -, e4, e5⟩ := idx_facts t
  rw [flushed2]
  funext j
  show out0_2 (iblk m c 0 t) (iblk m c 1 t) j
    = Cert.ColumnScale.scaled (m ((c : Thread nD τ).loc main_arg0)) (m ((c : Thread nD τ).loc main_arg1)) (((cfg0.win 2).blk t).view.emb j)
  refine (body_apply (iblk m c 0 t) (iblk m c 1 t) j).trans ?_
  rw [Cert.ColumnScale.scaled_apply,
    xblk_apply m c t j (((cfg0.win 2).blk t).view.emb j)
      (by show win0_2.index t (0 : Fin 2) * 2048 + 1 * (j 0).val = _; rw [e4]; omega)
      (by show win0_2.index t (1 : Fin 2) * 1024 + 1 * (j 1).val = _; rw [e5]; omega),
    arow_apply m c t (ix2 (0 : Fin 1) (j 1 : Fin 1024))]
  congr 2
  funext a
  apply Fin.ext
  match a with
  | ⟨0, _⟩ => show (j 1).val = win0_2.index t (1 : Fin 2) * 1024 + 1 * (j 1).val; rw [e5]; omega

/-- An index of the result is in point `t`'s block iff each coordinate is in the block's range on its axis. -/
theorem mem_blk (t : Fin cfg0.N) (i : S65536x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v1).slice (win0_2.rect t)).set ↔ _
  rw [View.set_slice_whole, Rect.mem_set_unit]
  exact Iff.rfl

/-- Every index of the result is in some point's block: row `r` is in block `r / 2048`. -/
theorem cover (i : S65536x1024.Idx) :
    ∃ t : Fin cfg0.N, (cfg0.win 2).flush t = true ∧ i ∈ ((cfg0.win 2).blk t).view.set := by
  have h0 : (i 0).val < 65536 := (i 0).isLt
  have h1 : (i 1).val < 1024 := (i 1).isLt
  obtain ⟨t, ht⟩ : ∃ t : Fin cfg0.N, t.val = (i 0).val / 2048 :=
    ⟨⟨(i 0).val / 2048, by rw [show cfg0.N = 32 from N_0]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    rw [e4, ht]; omega
  | ⟨1, _⟩ =>
    show win0_2.index t (1 : Fin 2) * 1024 ≤ (i 1).val ∧ (i 1).val < win0_2.index t (1 : Fin 2) * 1024 + 1024
    rw [e5]; omega

/-- The result array after the run is the column-scaled matrix. -/
theorem final (c : Dev nD) : (dats m 0 c).arrAt 2 cfg0.N
    = Cert.ColumnScale.scaled (m ((c : Thread nD τ).loc main_arg0)) (m ((c : Thread nD τ).loc main_arg1)) :=
  (dats m 0 c).arrAt_eq_of_cover 2 _ (fun t _ => flushed_eq m c t) cover

/-- The run, read: the result at `x[r, c] · a[c]`, the arguments unchanged. -/
theorem run : θ_run defs (onTc (τ := τ) (main (F := F))) ⟨m, fun _ => 0, ρ⟩ fun r => ∀ c : Dev nD,
      r.2.mem ((c : Thread nD τ).loc main_v1)
        = Cert.ColumnScale.scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.ReferenceValue.lean ====
/-
  The reference's result is the column-scaled matrix. The reference lays the vector `a` out as a one-row matrix,
  repeats that row 65536 times and multiplies the argument matrix by the repeated rows entry by entry; read at an
  index `(r, c)` the two repetitions compose to "read `a` at `c`", so the product there is `x[r, c] · a[c]`.
-/
import proofs.«415390_j46136538693752_3_alg».proof.Proof.Gen.ReferenceIdeal.Read
import proofs.«415390_j46136538693752_3_alg».proof.Proof.ColumnScale

noncomputable section

namespace Cert.ReferenceIdeal.RefValue

open Cert.ReferenceIdeal Cert.ReferenceIdeal.Read Idealize.ShloMosaic Idealize.ShloMosaic.ValueIdx

variable {F : FTy → Type} [FloatOps F]

/-- Through both repetitions an index `(r, c)` of the matrix reads the vector at its column `c`. -/
theorem idx_col (i : S65536x1024.Idx) : idx_main_v0 (idx_main_v1 i) = Cert.ColumnScale.col i := by
  funext a
  match a with
  | ⟨0, _⟩ => rfl

/-- The reference's product, entry by entry, is `x[r, c] · a[c]`. -/
theorem result_eq (x : (⟨S65536x1024, .f32⟩ : BufTy).Contents (Elt F)) (a : (⟨S1024, .f32⟩ : BufTy).Contents (Elt F)) :
    val_main_v2 (F := F) x a = Cert.ColumnScale.scaled x a := by
  funext i
  rw [val_main_v2_apply, val_main_v1_apply, val_main_v0_apply, idx_col, Cert.ColumnScale.scaled_apply]

end Cert.ReferenceIdeal.RefValue

end
-- ==== Proof.lean ====
/- The kernel and the reference both compute `x[r, c] · a[c]` for a 65536 × 1024 matrix `x` and a vector `a` of
   length 1024: the kernel block of 2048 rows by block, each block multiplied entry by entry by the vector staged as
   a one-row matrix; the reference by repeating the vector over all rows and multiplying once. Both are the SAME
   product of the same two entries at every index, so they agree at any float interpretation, the extended reals
   included, with no law of the multiplication used and no use of the inputs' finiteness.
   The three frames are the generated ones (the reference's is its run with the result dropped), the idealization
   rewrote nothing, and the value claim sets the kernel's run beside the reference's at the one function
   `Cert.ColumnScale.scaled`. -/
import proofs.«415390_j46136538693752_3_alg».proof.Defs
import proofs.«415390_j46136538693752_3_alg».proof.Proof.Gen.Kernel
import proofs.«415390_j46136538693752_3_alg».proof.Proof.Gen.Kernel.Skeleton
import proofs.«415390_j46136538693752_3_alg».proof.Proof.Gen.Kernel.Launch
import proofs.«415390_j46136538693752_3_alg».proof.Proof.Gen.Kernel.Points
import proofs.«415390_j46136538693752_3_alg».proof.Proof.Gen.Kernel.Frame
import proofs.«415390_j46136538693752_3_alg».proof.Proof.Gen.KernelIdeal
import proofs.«415390_j46136538693752_3_alg».proof.Proof.Gen.KernelIdeal.Skeleton
import proofs.«415390_j46136538693752_3_alg».proof.Proof.Gen.KernelIdeal.Launch
import proofs.«415390_j46136538693752_3_alg».proof.Proof.Gen.KernelIdeal.Points
import proofs.«415390_j46136538693752_3_alg».proof.Proof.Gen.KernelIdeal.Frame
import proofs.«415390_j46136538693752_3_alg».proof.Proof.Gen.ReferenceIdeal
import proofs.«415390_j46136538693752_3_alg».proof.Proof.Gen.Pre_finite_inputs
import proofs.«415390_j46136538693752_3_alg».proof.Proof.Gen.KernelIdeal.Value
import proofs.«415390_j46136538693752_3_alg».proof.Proof.Gen.ReferenceIdeal.Run
import proofs.«415390_j46136538693752_3_alg».proof.Proof.Gen.ReferenceIdeal.Read
import proofs.«415390_j46136538693752_3_alg».proof.Proof.ColumnScale
import proofs.«415390_j46136538693752_3_alg».proof.Proof.KernelValue
import proofs.«415390_j46136538693752_3_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel [Cert.Kernel.Facts] [Cert.Pre_finite_inputs.Facts] : Cert.frame_Kernel :=
  fun m ρ _ => Cert.Kernel.Gen.frame m ρ

/-- So does the kernel read over the extended reals. -/
theorem frame_kernel_ideal [Cert.KernelIdeal.Facts] [Cert.Pre_finite_inputs.Facts] : Cert.frame_KernelIdeal :=
  fun m ρ _ => Cert.KernelIdeal.Gen.frame m ρ

/-- The reference runs and leaves its arguments as they were: its run, with what it says of the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Over the extended reals, from memories that agree on `x` and `a`, both programs end with the result
    `x[r, c] · a[c]`: the kernel's array after its 32 row blocks are written back, the reference's product with the
    repeated vector. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ColumnScale.scaled (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v2_eq, Cert.ReferenceIdeal.RefValue.result_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
